-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel

variable [Facts]

def fn {F : FTy → Type} [FloatOps F] (main_arg0 : FVec F S4000000x3 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  main_v3
-- ==== Kernel.lean ====
abbrev S4000000x3 : Shape := ⟨2, ![4000000, 3]⟩
abbrev S4000000x16 : Shape := ⟨2, ![4000000, 16]⟩
abbrev S10000x3 : Shape := ⟨2, ![10000, 3]⟩
abbrev S10000x16 : Shape := ⟨2, ![10000, 16]⟩
abbrev S10000x1 : Shape := ⟨2, ![10000, 1]⟩
abbrev S10000 : Shape := ⟨1, ![10000]⟩

abbrev nBuf : Space → Nat
  | .hbm => 2
  | .vmem => 4
  | .smem => 0
  | _ => 0

abbrev bufTy : (tb : Table) → Fin (tcTables nBuf tb) → BufTy
  | .hbm, ⟨0, _⟩ => ⟨S4000000x3, .f32⟩
  | .hbm, ⟨1, _⟩ => ⟨S4000000x16, .f32⟩
  | .local _ .vmem, ⟨0, _⟩ => ⟨S10000x3, .f32⟩
  | .local _ .vmem, ⟨1, _⟩ => ⟨S10000x3, .f32⟩
  | .local _ .vmem, ⟨2, _⟩ => ⟨S10000x16, .f32⟩
  | .local _ .vmem, ⟨3, _⟩ => ⟨S10000x16, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S10000x3_S10000x3_0_0 : ∀ a, (![0, 0] : Fin 2 → Nat) a + S10000x3.size a ≤ S10000x3.size a
  h_S10000x3 : 0 < S10000x3.numel
  slices_S10000x3_o0_0_S10000x1 : S10000x3.Slices ![0, 0] S10000x1
  shapeCasts_S10000x1_S10000 : S10000x1.ShapeCasts S10000
  slices_S10000x3_o0_1_S10000x1 : S10000x3.Slices ![0, 1] S10000x1
  slices_S10000x3_o0_2_S10000x1 : S10000x3.Slices ![0, 2] S10000x1
  shapeCasts_S10000_S10000x1 : S10000.ShapeCasts S10000x1
  concatenates_S10000x1_S10000x1_S10000x1_S10000x1_S10000x1_S10000x1_S10000x1_S10000x1_S10000x1_S10000x1_S10000x1_S10000x1_S10000x1_S10000x1_S10000x1_S10000x1_S10000x16_d1 : Shape.Concatenates [S10000x1, S10000x1, S10000x1, S10000x1, S10000x1, S10000x1, S10000x1, S10000x1, S10000x1, S10000x1, S10000x1, S10000x1, S10000x1, S10000x1, S10000x1, S10000x1] S10000x16 1
  inb_S10000x16_S10000x16_0_0 : ∀ a, (![0, 0] : Fin 2 → Nat) a + S10000x16.size a ≤ S10000x16.size a
  h_S10000x16 : 0 < S10000x16.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S4000000x3.size a
  hwx0_0 : ∀ i : grid0.Coords, EltTy.bits .f32 = 32 ∨ (Rect.block (s := S4000000x3) S10000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S4000000x16.size a
  hwx0_1 : ∀ i : grid0.Coords, EltTy.bits .f32 = 32 ∨ (Rect.block (s := S4000000x16) S10000x16.size (cc0_transform_1 i) (hinb0_1 i)).WholeWords (EltTy.packing .f32)

variable [Facts₀]

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S_ : Shape := ⟨0, ![]⟩
abbrev S4000000 : Shape := ⟨1, ![4000000]⟩
abbrev S4000000x1 : Shape := ⟨2, ![4000000, 1]⟩
abbrev S4000000x16 : Shape := ⟨2, ![4000000, 16]⟩

abbrev nBuf : Space → Nat
  | .hbm => 129
  | .vmem => 0
  | .smem => 0
  | _ => 0

abbrev hbmTy0_0 (i : Nat) : BufTy := match i % 128 with
  | 0 => ⟨S4000000x3, .f32⟩
  | 1 => ⟨S4000000x3, .f32⟩
  | 2 => ⟨S_, .f32⟩
  | 3 => ⟨S4000000, .f32⟩
  | 4 => ⟨S4000000x1, .f32⟩
  | 5 => ⟨S4000000x1, .f32⟩
  | 6 => ⟨S4000000x3, .f32⟩
  | 7 => ⟨S4000000x3, .f32⟩
  | 8 => ⟨S4000000x1, .f32⟩
  | 9 => ⟨S4000000, .f32⟩
  | 10 => ⟨S4000000x1, .f32⟩
  | 11 => ⟨S4000000, .f32⟩
  | 12 => ⟨S4000000x1, .f32⟩
  | 13 => ⟨S4000000, .f32⟩
  | 14 => ⟨S4000000, .f32⟩
  | 15 => ⟨S4000000, .f32⟩
  | 16 => ⟨S4000000, .f32⟩
  | 17 => ⟨S_, .f32⟩
  | 18 => ⟨S4000000, .f32⟩
  | 19 => ⟨S_, .f32⟩
  | 20 => ⟨S4000000, .f32⟩
  | 21 => ⟨S4000000, .f32⟩
  | 22 => ⟨S_, .f32⟩
  | 23 => ⟨S4000000, .f32⟩
  | 24 => ⟨S4000000, .f32⟩
  | 25 => ⟨S_, .f32⟩
  | 26 => ⟨S4000000, .f32⟩
  | 27 => ⟨S4000000, .f32⟩
  | 28 => ⟨S_, .f32⟩
  | 29 => ⟨S4000000, .f32⟩
  | 30 => ⟨S4000000, .f32⟩
  | 31 => ⟨S_, .f32⟩
  | 32 => ⟨S4000000, .f32⟩
  | 33 => ⟨S4000000, .f32⟩
  | 34 => ⟨S4000000, .f32⟩
  | 35 => ⟨S_, .f32⟩
  | 36 => ⟨S4000000, .f32⟩
  | 37 => ⟨S4000000, .f32⟩
  | 38 => ⟨S4000000, .f32⟩
  | 39 => ⟨S_, .f32⟩
  | 40 => ⟨S4000000, .f32⟩
  | 41 => ⟨S4000000, .f32⟩
  | 42 => ⟨S_, .f32⟩
  | 43 => ⟨S4000000, .f32⟩
  | 44 => ⟨S4000000, .f32⟩
  | 45 => ⟨S_, .f32⟩
  | 46 => ⟨S4000000, .f32⟩
  | 47 => ⟨S4000000, .f32⟩
  | 48 => ⟨S_, .f32⟩
  | 49 => ⟨S4000000, .f32⟩
  | 50 => ⟨S4000000, .f32⟩
  | 51 => ⟨S4000000, .f32⟩
  | 52 => ⟨S4000000, .f32⟩
  | 53 => ⟨S_, .f32⟩
  | 54 => ⟨S4000000, .f32⟩
  | 55 => ⟨S4000000, .f32⟩
  | 56 => ⟨S_, .f32⟩
  | 57 => ⟨S4000000, .f32⟩
  | 58 => ⟨S4000000, .f32⟩
  | 59 => ⟨S_, .f32⟩
  | 60 => ⟨S4000000, .f32⟩
  | 61 => ⟨S4000000, .f32⟩
  | 62 => ⟨S4000000, .f32⟩
  | 63 => ⟨S4000000, .f32⟩
  | 64 => ⟨S_, .f32⟩
  | 65 => ⟨S4000000, .f32⟩
  | 66 => ⟨S4000000, .f32⟩
  | 67 => ⟨S4000000, .f32⟩
  | 68 => ⟨S4000000, .f32⟩
  | 69 => ⟨S_, .f32⟩
  | 70 => ⟨S4000000, .f32⟩
  | 71 => ⟨S4000000, .f32⟩
  | 72 => ⟨S_, .f32⟩
  | 73 => ⟨S4000000, .f32⟩
  | 74 => ⟨S4000000, .f32⟩
  | 75 => ⟨S_, .f32⟩
  | 76 => ⟨S4000000, .f32⟩
  | 77 => ⟨S4000000, .f32⟩
  | 78 => ⟨S4000000, .f32⟩
  | 79 => ⟨S_, .f32⟩
  | 80 => ⟨S4000000, .f32⟩
  | 81 => ⟨S4000000, .f32⟩
  | 82 => ⟨S_, .f32⟩
  | 83 => ⟨S4000000, .f32⟩
  | 84 => ⟨S4000000, .f32⟩
  | 85 => ⟨S_, .f32⟩
  | 86 => ⟨S4000000, .f32⟩
  | 87 => ⟨S4000000, .f32⟩
  | 88 => ⟨S4000000, .f32⟩
  | 89 => ⟨S_, .f32⟩
  | 90 => ⟨S4000000, .f32⟩
  | 91 => ⟨S4000000, .f32⟩
  | 92 => ⟨S_, .f32⟩
  | 93 => ⟨S4000000, .f32⟩
  | 94 => ⟨S4000000, .f32⟩
  | 95 => ⟨S_, .f32⟩
  | 96 => ⟨S4000000, .f32⟩
  | 97 => ⟨S4000000, .f32⟩
  | 98 => ⟨S4000000, .f32⟩
  | 99 => ⟨S_, .f32⟩
  | 100 => ⟨S4000000, .f32⟩
  | 101 => ⟨S4000000, .f32⟩
  | 102 => ⟨S4000000, .f32⟩
  | 103 => ⟨S4000000, .f32⟩
  | 104 => ⟨S_, .f32⟩
  | 105 => ⟨S4000000, .f32⟩
  | 106 => ⟨S4000000, .f32⟩
  | 107 => ⟨S_, .f32⟩
  | 108 => ⟨S4000000, .f32⟩
  | 109 => ⟨S4000000, .f32⟩
  | 110 => ⟨S4000000, .f32⟩
  | 111 => ⟨S4000000, .f32⟩
  | 112 => ⟨S4000000x1, .f32⟩
  | 113 => ⟨S4000000x1, .f32⟩
  | 114 => ⟨S4000000x1, .f32⟩
  | 115 => ⟨S4000000x1, .f32⟩
  | 116 => ⟨S4000000x1, .f32⟩
  | 117 => ⟨S4000000x1, .f32⟩
  | 118 => ⟨S4000000x1, .f32⟩
  | 119 => ⟨S4000000x1, .f32⟩
  | 120 => ⟨S4000000x1, .f32⟩
  | 121 => ⟨S4000000x1, .f32⟩
  | 122 => ⟨S4000000x1, .f32⟩
  | 123 => ⟨S4000000x1, .f32⟩
  | 124 => ⟨S4000000x1, .f32⟩
  | 125 => ⟨S4000000x1, .f32⟩
  | 126 => ⟨S4000000x1, .f32⟩
  | 127 => ⟨S4000000x1, .f32⟩
  | _ => ⟨S4000000x3, .f32⟩

abbrev hbmTy0_1 (i : Nat) : BufTy := match i % 128 with
  | 0 => ⟨S4000000x16, .f32⟩
  | _ => ⟨S4000000x3, .f32⟩

abbrev hbmTy (i : Nat) : BufTy := match i / 128 with
  | 0 => hbmTy0_0 i
  | 1 => hbmTy0_1 i
  | _ => ⟨S4000000x3, .f32⟩

abbrev bufTy : (tb : Table) → Fin (tcTables nBuf tb) → BufTy
  | .hbm, ⟨i, _⟩ => hbmTy i
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst_0 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_6 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_7 : Ref sig .tc := ⟨.hbm, 39, rfl⟩
abbrev main_v30 : Ref sig .tc := ⟨.hbm, 40, rfl⟩
abbrev main_v31 : Ref sig .tc := ⟨.hbm, 41, rfl⟩
abbrev main_cst_8 : Ref sig .tc := ⟨.hbm, 42, rfl⟩
abbrev main_v32 : Ref sig .tc := ⟨.hbm, 43, rfl⟩
abbrev main_v33 : Ref sig .tc := ⟨.hbm, 44, rfl⟩
abbrev main_cst_9 : Ref sig .tc := ⟨.hbm, 45, rfl⟩
abbrev main_v34 : Ref sig .tc := ⟨.hbm, 46, rfl⟩
abbrev main_v35 : Ref sig .tc := ⟨.hbm, 47, rfl⟩
abbrev main_cst_10 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_11 : Ref sig .tc := ⟨.hbm, 53, rfl⟩
abbrev main_v40 : Ref sig .tc := ⟨.hbm, 54, rfl⟩
abbrev main_v41 : Ref sig .tc := ⟨.hbm, 55, rfl⟩
abbrev main_cst_12 : Ref sig .tc := ⟨.hbm, 56, rfl⟩
abbrev main_v42 : Ref sig .tc := ⟨.hbm, 57, rfl⟩
abbrev main_v43 : Ref sig .tc := ⟨.hbm, 58, rfl⟩
abbrev main_cst_13 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_14 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_15 : Ref sig .tc := ⟨.hbm, 69, rfl⟩
abbrev main_v52 : Ref sig .tc := ⟨.hbm, 70, rfl⟩
abbrev main_v53 : Ref sig .tc := ⟨.hbm, 71, rfl⟩
abbrev main_cst_16 : Ref sig .tc := ⟨.hbm, 72, rfl⟩
abbrev main_v54 : Ref sig .tc := ⟨.hbm, 73, rfl⟩
abbrev main_v55 : Ref sig .tc := ⟨.hbm, 74, rfl⟩
abbrev main_cst_17 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_18 : Ref sig .tc := ⟨.hbm, 79, rfl⟩
abbrev main_v59 : Ref sig .tc := ⟨.hbm, 80, rfl⟩
abbrev main_v60 : Ref sig .tc := ⟨.hbm, 81, rfl⟩
abbrev main_cst_19 : Ref sig .tc := ⟨.hbm, 82, rfl⟩
abbrev main_v61 : Ref sig .tc := ⟨.hbm, 83, rfl⟩
abbrev main_v62 : Ref sig .tc := ⟨.hbm, 84, rfl⟩
abbrev main_cst_20 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_21 : Ref sig .tc := ⟨.hbm, 89, rfl⟩
abbrev main_v66 : Ref sig .tc := ⟨.hbm, 90, rfl⟩
abbrev main_v67 : Ref sig .tc := ⟨.hbm, 91, rfl⟩
abbrev main_cst_22 : Ref sig .tc := ⟨.hbm, 92, rfl⟩
abbrev main_v68 : Ref sig .tc := ⟨.hbm, 93, rfl⟩
abbrev main_v69 : Ref sig .tc := ⟨.hbm, 94, rfl⟩
abbrev main_cst_23 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_24 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_25 : Ref sig .tc := ⟨.hbm, 104, rfl⟩
abbrev main_v77 : Ref sig .tc := ⟨.hbm, 105, rfl⟩
abbrev main_v78 : Ref sig .tc := ⟨.hbm, 106, rfl⟩
abbrev main_cst_26 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩

abbrev nD : Nat := 1
abbrev τ : Topo := Topo.v7x

variable {F : FTy → Type} [FloatOps F]

class Facts₀ : Prop where
  reducesTo_S4000000x3_S4000000_d1 : S4000000x3.ReducesTo [1] S4000000
  h_S_ : 0 < S_.numel
  bcast_S4000000_S4000000x1_0 : S4000000.BroadcastsInDim S4000000x1 (![0] : Fin 1 → Fin S4000000x1.rank)
  bcast_S4000000x1_S4000000x3_0_1 : S4000000x1.BroadcastsInDim S4000000x3 (![0, 1] : Fin 2 → Fin S4000000x3.rank)
  slices_S4000000x3_S4000000x1_0_0 : S4000000x3.Slices ![0, 0] S4000000x1
  shapeCasts_S4000000x1_S4000000 : S4000000x1.ShapeCasts S4000000
  slices_S4000000x3_S4000000x1_0_1 : S4000000x3.Slices ![0, 1] S4000000x1
  slices_S4000000x3_S4000000x1_0_2 : S4000000x3.Slices ![0, 2] S4000000x1
  bcast_S_S4000000 : S_.BroadcastsInDim S4000000 (![] : Fin 0 → Fin S4000000.rank)
  concatenates_S4000000x1_S4000000x1_S4000000x1_S4000000x1_S4000000x1_S4000000x1_S4000000x1_S4000000x1_S4000000x1_S4000000x1_S4000000x1_S4000000x1_S4000000x1_S4000000x1_S4000000x1_S4000000x1_S4000000x16_d1 : Shape.Concatenates [S4000000x1, S4000000x1, S4000000x1, S4000000x1, S4000000x1, S4000000x1, S4000000x1, S4000000x1, S4000000x1, S4000000x1, S4000000x1, S4000000x1, S4000000x1, S4000000x1, S4000000x1, S4000000x1] S4000000x16 1

variable [Facts₀]

class Facts : Prop extends Facts₀ where

variable [Facts]
-- ==== Proof.LibColumns.lean ====
/- Columns of a matrix read at an index written by coordinates, and sixteen columns laid side by side.

   What a row-wise kernel that splits an [a, b] array into its columns, computes with them as vectors [a] and
   joins sixteen results into an [a, 16] array meets: column k cut out as an [a, 1] slice and viewed as a vector;
   a vector broadcast to an [a, 1] column; the concatenation of sixteen [a, 1] columns along axis 1, which at
   (r, q) reads column q at (r, 0). Every shape fact is a variable, so a lemma applies whatever proof term a
   program carries for it. -/
import Idealize.ShloMosaic.Lib.Pipeline.Value
import Idealize.ShloMosaic.Lib.ValueIdx

noncomputable section

namespace Cert.Columns

open Idealize.ShloMosaic Idealize.ShloMosaic.ValueIdx

variable {α : Type}

/-- One of sixteen values, chosen by its position. -/
def pick16 (a0 a1 a2 a3 a4 a5 a6 a7 a8 a9 a10 a11 a12 a13 a14 a15 : α) : Fin 16 → α
  | ⟨0, _⟩ => a0
  | ⟨1, _⟩ => a1
  | ⟨2, _⟩ => a2
  | ⟨3, _⟩ => a3
  | ⟨4, _⟩ => a4
  | ⟨5, _⟩ => a5
  | ⟨6, _⟩ => a6
  | ⟨7, _⟩ => a7
  | ⟨8, _⟩ => a8
  | ⟨9, _⟩ => a9
  | ⟨10, _⟩ => a10
  | ⟨11, _⟩ => a11
  | ⟨12, _⟩ => a12
  | ⟨13, _⟩ => a13
  | ⟨14, _⟩ => a14
  | ⟨15, _⟩ => a15
  | ⟨_ + 16, h⟩ => absurd h (Nat.not_lt.2 (Nat.le_add_left _ _))

/-- Choosing one of sixteen functions and applying it is choosing among their values. -/
theorem pick16_apply {β : Type} (f0 f1 f2 f3 f4 f5 f6 f7 f8 f9 f10 f11 f12 f13 f14 f15 : β → α) (q : Fin 16) (x : β) :
    pick16 f0 f1 f2 f3 f4 f5 f6 f7 f8 f9 f10 f11 f12 f13 f14 f15 q x = pick16 (f0 x) (f1 x) (f2 x) (f3 x) (f4 x) (f5 x) (f6 x) (f7 x) (f8 x) (f9 x) (f10 x) (f11 x) (f12 x) (f13 x) (f14 x) (f15 x) q := by
  match q with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨_ + 16, h⟩ => exact absurd h (Nat.not_lt.2 (Nat.le_add_left _ _))

/-- Two choices among sixteen agree when the sixteen values agree one by one. -/
theorem pick16_congr {a0 a1 a2 a3 a4 a5 a6 a7 a8 a9 a10 a11 a12 a13 a14 a15 b0 b1 b2 b3 b4 b5 b6 b7 b8 b9 b10 b11 b12 b13 b14 b15 : α}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (q : Fin 16) :
    pick16 a0 a1 a2 a3 a4 a5 a6 a7 a8 a9 a10 a11 a12 a13 a14 a15 q = pick16 b0 b1 b2 b3 b4 b5 b6 b7 b8 b9 b10 b11 b12 b13 b14 b15 q := by
  rw [h0, h1, h2, h3, h4, h5, h6, h7, h8, h9, h10, h11, h12, h13, h14, h15]

/-- Column `k` of an [a, b] matrix, cut out as an [a, 1] slice and viewed as a vector [a], reads at r the matrix
    at (r, k). -/
theorem column_apply {a b : ℕ} (k : ℕ) (hk : k < b) (x : (⟨2, ![a, b]⟩ : Shape).Idx → α)
    (hs : (⟨2, ![a, b]⟩ : Shape).Slices ![0, k] ⟨2, ![a, 1]⟩) (hc : (⟨2, ![a, 1]⟩ : Shape).ShapeCasts ⟨1, ![a]⟩) (r : Fin a) :
    shapeCast ⟨1, ![a]⟩ (extractStridedSlice ⟨2, ![a, 1]⟩ ![0, k] x hs) hc (ix1 r) = x (ix2 r ⟨k, hk⟩) :=
  (shapeCast_apply _ hc (ix1 r) (ix2 r (0 : Fin 1)) (by
      rw [Shape.rowMajor_val_two, Shape.rowMajor_val_one]
      show r.val * 1 + 0 = r.val
      omega)).trans
    (extractStridedSlice_apply ![0, k] x hs (ix2 r (0 : Fin 1)) (ix2 r ⟨k, hk⟩) (fun ax => match ax with
      | ⟨0, _⟩ => by show r.val = 0 + r.val; omega
      | ⟨1, _⟩ => by show k = k + 0; omega))

/-- A vector [a] broadcast along axis 0 into an [a, 1] column reads, at (r, u), the vector at r. -/
theorem broadcastInDim_a_a1_apply {a : ℕ} (x : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h x (ix2 r u) = x (ix1 r) :=
  broadcastInDim_apply ![0] h x (ix2 r u) (ix1 r) (fun ax => match ax with
    | ⟨0, _⟩ => by
      have := r.isLt
      show r.val = if a = 1 then 0 else r.val
      split <;> omega)

/-- Sixteen [a, 1] columns laid side by side along axis 1 read, at (r, q), column q at (r, 0). -/
theorem concatenate16_apply {a : ℕ} (c0 c1 c2 c3 c4 c5 c6 c7 c8 c9 c10 c11 c12 c13 c14 c15 : (⟨2, ![a, 1]⟩ : Shape).Idx → α)
    (h : Shape.Concatenates ([(⟨(⟨2, ![a, 1]⟩ : Shape), c0⟩ : (s : Shape) × (s.Idx → α)), (⟨(⟨2, ![a, 1]⟩ : Shape), c1⟩ : (s : Shape) × (s.Idx → α)), (⟨(⟨2, ![a, 1]⟩ : Shape), c2⟩ : (s : Shape) × (s.Idx → α)), (⟨(⟨2, ![a, 1]⟩ : Shape), c3⟩ : (s : Shape) × (s.Idx → α)), (⟨(⟨2, ![a, 1]⟩ : Shape), c4⟩ : (s : Shape) × (s.Idx → α)), (⟨(⟨2, ![a, 1]⟩ : Shape), c5⟩ : (s : Shape) × (s.Idx → α)), (⟨(⟨2, ![a, 1]⟩ : Shape), c6⟩ : (s : Shape) × (s.Idx → α)), (⟨(⟨2, ![a, 1]⟩ : Shape), c7⟩ : (s : Shape) × (s.Idx → α)), (⟨(⟨2, ![a, 1]⟩ : Shape), c8⟩ : (s : Shape) × (s.Idx → α)), (⟨(⟨2, ![a, 1]⟩ : Shape), c9⟩ : (s : Shape) × (s.Idx → α)), (⟨(⟨2, ![a, 1]⟩ : Shape), c10⟩ : (s : Shape) × (s.Idx → α)), (⟨(⟨2, ![a, 1]⟩ : Shape), c11⟩ : (s : Shape) × (s.Idx → α)), (⟨(⟨2, ![a, 1]⟩ : Shape), c12⟩ : (s : Shape) × (s.Idx → α)), (⟨(⟨2, ![a, 1]⟩ : Shape), c13⟩ : (s : Shape) × (s.Idx → α)), (⟨(⟨2, ![a, 1]⟩ : Shape), c14⟩ : (s : Shape) × (s.Idx → α)), (⟨(⟨2, ![a, 1]⟩ : Shape), c15⟩ : (s : Shape) × (s.Idx → α))].map (·.1)) ⟨2, ![a, 16]⟩ 1)
    (r : Fin a) (q : Fin 16) :
    concatenate ⟨2, ![a, 16]⟩ 1 [⟨(⟨2, ![a, 1]⟩ : Shape), c0⟩, ⟨(⟨2, ![a, 1]⟩ : Shape), c1⟩, ⟨(⟨2, ![a, 1]⟩ : Shape), c2⟩, ⟨(⟨2, ![a, 1]⟩ : Shape), c3⟩, ⟨(⟨2, ![a, 1]⟩ : Shape), c4⟩, ⟨(⟨2, ![a, 1]⟩ : Shape), c5⟩, ⟨(⟨2, ![a, 1]⟩ : Shape), c6⟩, ⟨(⟨2, ![a, 1]⟩ : Shape), c7⟩, ⟨(⟨2, ![a, 1]⟩ : Shape), c8⟩, ⟨(⟨2, ![a, 1]⟩ : Shape), c9⟩, ⟨(⟨2, ![a, 1]⟩ : Shape), c10⟩, ⟨(⟨2, ![a, 1]⟩ : Shape), c11⟩, ⟨(⟨2, ![a, 1]⟩ : Shape), c12⟩, ⟨(⟨2, ![a, 1]⟩ : Shape), c13⟩, ⟨(⟨2, ![a, 1]⟩ : Shape), c14⟩, ⟨(⟨2, ![a, 1]⟩ : Shape), c15⟩] h (ix2 r q)
      = pick16 c0 c1 c2 c3 c4 c5 c6 c7 c8 c9 c10 c11 c12 c13 c14 c15 q (ix2 r (0 : Fin 1)) :=
  concatenate_ofFn_unit_apply (t := ⟨2, ![a, 16]⟩) (s₁ := (⟨2, ![a, 1]⟩ : Shape)) (1 : Fin 2)
    (pick16 c0 c1 c2 c3 c4 c5 c6 c7 c8 c9 c10 c11 c12 c13 c14 c15) h rfl rfl (ix2 r q) q rfl (ix2 r (0 : Fin 1))
    (fun b hb => match b with
      | ⟨0, _⟩ => rfl
      | ⟨1, _⟩ => absurd rfl hb)

end Cert.Columns

end
-- ==== Proof.Harmonics.lean ====
/- The sixteen real spherical harmonics of degree at most three, at the direction of a 3-vector, on the
   extended reals.

   A row (a, b, c) is first scaled onto the unit sphere by the reciprocal of its length,
   (a² + b² + c²)^(-1/2), giving (x, y, z); the sixteen channels are then polynomials of degree at most three
   in x, y, z — the constant, the three linear ones in the order (y, z, x), five quadratic and seven cubic —,
   each with the f32 coefficient both programs carry, kept here as the extended real its bit pattern denotes.
   The products are associated exactly as both programs associate them, so each program's channel is this
   term read off, and no law of the extended reals beyond the one below is used.

   The array form: entry (r, q) of the [4000000, 16] result is channel q of row r of the [4000000, 3] argument.

   The one law: a sum that starts from the zero literal and runs over three terms is the three terms added
   left to right (0 is neutral and the sum over `Fin 3` is its three terms; no finiteness is needed). -/
import Idealize.ShloMosaic.PureOps.Ideal
import Idealize.ShloMosaic.PureOps.Ideal.Laws
import Idealize.ShloMosaic.Lib.ValueIdx
import proofs.«170336_j56805237457290_1_alg».proof.Proof.LibColumns

noncomputable section

open scoped BigOperators

namespace Cert.Harmonics

open Idealize.ShloMosaic Idealize.ShloMosaic.ValueIdx Cert.Columns

/-- The extended real an f32 bit pattern denotes. -/
abbrev lit (w : BitVec 32) : EReal := Ideal.ofBits .f32 w

/-- The reciprocal of the Euclidean length of (a, b, c). -/
def invLen (a b c : EReal) : EReal := Ideal.rsqrt (a * a + b * b + c * c)

/-- The sixteen channels at a direction (x, y, z). -/
def chan (x y z : EReal) : Fin 16 → EReal :=
  pick16
    (lit 0x3E906EBB#32 * lit 0x3F800000#32)
    (lit 0x3EFA2A1C#32 * y)
    (lit 0x3EFA2A1C#32 * z)
    (lit 0x3EFA2A1C#32 * x)
    (lit 0x3F8BD8A1#32 * x * y)
    (lit 0x3F8BD8A1#32 * y * z)
    (lit 0x3EA17B01#32 * (lit 0x40400000#32 * (z * z) - lit 0x3F800000#32))
    (lit 0x3F8BD8A1#32 * x * z)
    (lit 0x3F0BD8A1#32 * (x * x - y * y))
    (lit 0x3F170D19#32 * y * (lit 0x40400000#32 * (x * x) - y * y))
    (lit 0x4038FFC7#32 * x * y * z)
    (lit 0x3EEA01E8#32 * y * (lit 0x40A00000#32 * (z * z) - lit 0x3F800000#32))
    (lit 0x3EBF10F8#32 * z * (lit 0x40A00000#32 * (z * z) - lit 0x40400000#32))
    (lit 0x3EEA01E8#32 * x * (lit 0x40A00000#32 * (z * z) - lit 0x3F800000#32))
    (lit 0x3FB8FFC7#32 * z * (x * x - y * y))
    (lit 0x3F170D19#32 * x * (x * x - lit 0x40400000#32 * (y * y)))

/-- The sixteen channels of a row (a, b, c): the channels at its direction. -/
def row (a b c : EReal) : Fin 16 → EReal :=
  chan (a * invLen a b c) (b * invLen a b c) (c * invLen a b c)

/-- The result array as one function of the argument array: entry (r, q) is channel q of row r. -/
def harmonics (v : (⟨2, ![4000000, 3]⟩ : Shape).Idx → EReal) : (⟨2, ![4000000, 16]⟩ : Shape).Idx → EReal :=
  fun i => row (v (ix2 (i 0) 0)) (v (ix2 (i 0) 1)) (v (ix2 (i 0) 2)) (i 1)

theorem harmonics_apply (v : (⟨2, ![4000000, 3]⟩ : Shape).Idx → EReal) (r : Fin 4000000) (q : Fin 16) :
    harmonics v (ix2 r q) = row (v (ix2 r 0)) (v (ix2 r 1)) (v (ix2 r 2)) q := rfl

/-- A sum from the zero literal over three terms is the three terms added left to right. -/
theorem zero_add_sum_three (f : Fin 3 → EReal) : lit 0x00000000#32 + ∑ k : Fin 3, f k = f 0 + f 1 + f 2 := by
  rw [show lit 0x00000000#32 = 0 from Ideal.ofBits_zero_f32, zero_add, Fin.sum_univ_three]

end Cert.Harmonics

end
-- ==== Proof.LibKeepdims.lean ====
/- Layout operations and one-axis reductions of small ranks read at an index written by coordinates.

   What a row-wise kernel with `keepdims` sums meets: a column [a] viewed as [a, 1]; a matrix [a, c] viewed as
   [a, 1, c]; the broadcasts [a, 1, c] → [a, b, c] and [a, 1] → [a, b]; a sum or a maximum over the last axis of a
   rank-3 or rank-2 vector, and a sum over the first axis of a rank-2 vector, each as a sum or fold over that axis's
   coordinate; the host's reductions over the last axis of a rank-2 array likewise. Every shape fact is a variable,
   so a lemma applies whatever proof term a program carries for it. -/
import Idealize.ShloMosaic.Lib.Pipeline.Value
import Idealize.ShloMosaic.Lib.ValueIdx
import Idealize.ShloMosaic.PureOps.Ideal.Laws

noncomputable section

open scoped BigOperators

namespace Cert.Keepdims

open Idealize.ShloMosaic Idealize.ShloMosaic.ValueIdx

variable {α : Type}

/-- A column [a] viewed as [a, 1] reads, at (r, u), the column at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A matrix [a, c] viewed as [a, 1, c] reads, at (r, u, q), the matrix at (r, q). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (q : Fin c) :
    shapeCast ⟨3, ![a, 1, c]⟩ x h (ix3 r u q) = x (ix2 r q) :=
  shapeCast_apply x h _ _ (by
    have hu : u.val = 0 := by omega
    rw [Shape.rowMajor_val_three, Shape.rowMajor_val_two]
    show r.val * c + q.val = (r.val * 1 + u.val) * c + q.val
    rw [hu, Nat.mul_one, Nat.add_zero])

/-- [a, 1, c] broadcast along its middle axis reads, at (r, k, q), the operand at (r, 0, q). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (k : Fin b) (q : Fin c) :
    broadcastTo ⟨3, ![a, b, c]⟩ x h (ix3 r k q) = x (ix3 r (0 : Fin 1) q) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl]
    | ⟨2, _⟩ => by
      have := q.isLt
      show q.val = if c = 1 then 0 else q.val
      split <;> omega)

/-- A column [a, 1] broadcast along its unit axis reads, at (r, k), the column at (r, 0). -/
theorem broadcastTo_a1_ab_apply {a b : ℕ} (x : (⟨2, ![a, 1]⟩ : Shape).Idx → α)
    (h : (⟨2, ![a, 1]⟩ : Shape).Broadcasts ⟨2, ![a, b]⟩) (r : Fin a) (k : Fin b) :
    broadcastTo ⟨2, ![a, b]⟩ x h (ix2 r k) = x (ix2 r (0 : Fin 1)) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl])

/-- The index over (r, k) with q inserted on the last of three axes is (r, k, q). -/
theorem lift_last3 {a b c : ℕ} (h : (⟨3, ![a, b, c]⟩ : Shape).Reduces [2] ⟨2, ![a, b]⟩) (r : Fin a) (k : Fin b) (q : Fin c) :
    h.lift (ix2 r k) q = ix3 r k q :=
  funext fun ax => Fin.ext (by match ax with | ⟨0, _⟩ => rfl | ⟨1, _⟩ => rfl | ⟨2, _⟩ => rfl)

/-- The index over (r) with k inserted on the last of two axes is (r, k). -/
theorem lift_last2 {a b : ℕ} (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- The index over (q) with r inserted on the first of two axes is (r, q). -/
theorem lift_first2 {a b : ℕ} (h : (⟨2, ![a, b]⟩ : Shape).Reduces [0] ⟨1, ![b]⟩) (r : Fin a) (q : Fin b) :
    h.lift (ix1 q) r = ix2 r q :=
  funext fun ax => Fin.ext (by match ax with | ⟨0, _⟩ => rfl | ⟨1, _⟩ => rfl)

variable {φ : FTy}

/-- A sum over the last of three axes, at (r, k): the sum over q of the source at (r, k, q). -/
theorem sum_last3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (r : Fin a) (k : Fin b) :
    multiReduction .add [2] ⟨2, ![a, b]⟩ src acc h hφ hacc (ix2 r k) = ∑ q : Fin c, src (ix3 r k q) :=
  (Ideal.multiReduction_add_single src acc h hφ hacc (ix2 r k)).trans
    (Finset.sum_congr rfl fun q _ => congrArg src (lift_last3 h r k q))

/-- A sum over the last of two axes, at (r): the sum over k of the source at (r, k). -/
theorem sum_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_last2 h r k))

/-- A sum over the first of two axes, at (q): the sum over r of the source at (r, q). -/
theorem sum_first2_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) :=
  (Ideal.multiReduction_add_single src acc h hφ hacc (ix1 q)).trans
    (Finset.sum_congr rfl fun r _ => congrArg src (lift_first2 h r q))

/-- A maximum over the last of two axes, at (r): the fold of max, from the accumulator's value, over k of the
    source at (r, k). -/
theorem max_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun g => (Finset.univ : Finset (Fin b)).fold max (Ideal.ofBits φ acc) g)
      (funext fun k => congrArg src (lift_last2 h r k)))

/-- The host's maximum over the last of two axes, at (r): the same fold, from the initial value's element. -/
theorem host_max_last2_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) :=
  (Host.reduce_eq_fold_single (FloatOps.maximumf (F := Ideal) (φ := φ)) x init h' h hu (ix1 r)).trans
    (congrArg (fun g => (Finset.univ : Finset (Fin b)).fold max (init (Shape.Idx.first hu)) g)
      (funext fun k => congrArg x (lift_last2 h r k)))

end Cert.Keepdims

end
-- ==== Proof.KernelBlock.lean ====
/- What the idealized kernel's body leaves in an output block, entry by entry.

   The body loads the [10000, 3] input block P, splits it into its three columns as vectors (a slice of width one
   viewed as a vector), scales them by the reciprocal length of each row, forms the sixteen channel vectors, views
   each as a [10000, 1] column and stores the sixteen columns side by side. So the stored block at (p, q) is
   channel q of row p of P: the join reads column q at (p, 0), a column reads its vector at p, and every vector is
   a pointwise expression of the three column vectors, which at p are P at (p, 0), (p, 1), (p, 2). -/
import proofs.«170336_j56805237457290_1_alg».proof.Proof.Gen.KernelIdeal.Frame
import proofs.«170336_j56805237457290_1_alg».proof.Proof.Harmonics
import proofs.«170336_j56805237457290_1_alg».proof.Proof.LibColumns
import proofs.«170336_j56805237457290_1_alg».proof.Proof.LibKeepdims
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.Columns Cert.Harmonics

/-- Column 0 of the block as a vector: at p it is the block at (p, 0). -/
theorem col0_apply (P : Vec Ideal S10000x3 .f32) (p : Fin 10000) : k0_pay2 P (ix1 p) = P (ix2 p 0) :=
  column_apply 0 (by decide) P slices_S10000x3_o0_0_S10000x1 shapeCasts_S10000x1_S10000 p

/-- Column 1 likewise. -/
theorem col1_apply (P : Vec Ideal S10000x3 .f32) (p : Fin 10000) : k0_pay3 P (ix1 p) = P (ix2 p 1) :=
  column_apply 1 (by decide) P slices_S10000x3_o0_1_S10000x1 shapeCasts_S10000x1_S10000 p

/-- Column 2 likewise. -/
theorem col2_apply (P : Vec Ideal S10000x3 .f32) (p : Fin 10000) : k0_pay4 P (ix1 p) = P (ix2 p 2) :=
  column_apply 2 (by decide) P slices_S10000x3_o0_2_S10000x1 shapeCasts_S10000x1_S10000 p

/-- The reciprocal-length vector at p is the reciprocal length of row p. -/
theorem invLen_apply (P : Vec Ideal S10000x3 .f32) (p : Fin 10000) :
    k0_pay5 P (ix1 p) = invLen (P (ix2 p 0)) (P (ix2 p 1)) (P (ix2 p 2)) := by
  rw [← col0_apply P p, ← col1_apply P p, ← col2_apply P p]
  rfl

/-- The direction's first coordinate at p: row p's first entry over its length. -/
theorem x_apply (P : Vec Ideal S10000x3 .f32) (p : Fin 10000) :
    k0_pay6 P (ix1 p) = P (ix2 p 0) * invLen (P (ix2 p 0)) (P (ix2 p 1)) (P (ix2 p 2)) := by
  rw [← invLen_apply P p, ← col0_apply P p]
  rfl

/-- Its second coordinate. -/
theorem y_apply (P : Vec Ideal S10000x3 .f32) (p : Fin 10000) :
    k0_pay7 P (ix1 p) = P (ix2 p 1) * invLen (P (ix2 p 0)) (P (ix2 p 1)) (P (ix2 p 2)) := by
  rw [← invLen_apply P p, ← col1_apply P p]
  rfl

/-- Its third coordinate. -/
theorem z_apply (P : Vec Ideal S10000x3 .f32) (p : Fin 10000) :
    k0_pay8 P (ix1 p) = P (ix2 p 2) * invLen (P (ix2 p 0)) (P (ix2 p 1)) (P (ix2 p 2)) := by
  rw [← invLen_apply P p, ← col2_apply P p]
  rfl

/-- The join of the sixteen columns at (p, q): the q-th of the sixteen values at p — three operands arrive as
    columns, thirteen as vectors the join views as columns first. -/
theorem join_apply (v27 v30 v33 v39 v42 v45 v51 v55 v62 v69 v76 v80 v86 : FVec Ideal S10000 .f32) (v87 v88 v89 : FVec Ideal S10000x1 .f32)
    (p : Fin 10000) (q : Fin 16) :
    k0_pay1 v27 v30 v33 v39 v42 v45 v51 v55 v62 v69 v76 v80 v86 v87 v88 v89 (ix2 p q)
      = pick16 (v87 (ix2 p 0)) (v88 (ix2 p 0)) (v89 (ix2 p 0)) (v27 (ix1 p)) (v30 (ix1 p)) (v33 (ix1 p)) (v39 (ix1 p)) (v42 (ix1 p)) (v45 (ix1 p)) (v51 (ix1 p)) (v55 (ix1 p)) (v62 (ix1 p)) (v69 (ix1 p)) (v76 (ix1 p)) (v80 (ix1 p)) (v86 (ix1 p)) q := by
  refine (concatenate16_apply v87 v88 v89 (shapeCast S10000x1 v27 shapeCasts_S10000_S10000x1) (shapeCast S10000x1 v30 shapeCasts_S10000_S10000x1) (shapeCast S10000x1 v33 shapeCasts_S10000_S10000x1) (shapeCast S10000x1 v39 shapeCasts_S10000_S10000x1) (shapeCast S10000x1 v42 shapeCasts_S10000_S10000x1) (shapeCast S10000x1 v45 shapeCasts_S10000_S10000x1) (shapeCast S10000x1 v51 shapeCasts_S10000_S10000x1) (shapeCast S10000x1 v55 shapeCasts_S10000_S10000x1) (shapeCast S10000x1 v62 shapeCasts_S10000_S10000x1) (shapeCast S10000x1 v69 shapeCasts_S10000_S10000x1) (shapeCast S10000x1 v76 shapeCasts_S10000_S10000x1) (shapeCast S10000x1 v80 shapeCasts_S10000_S10000x1) (shapeCast S10000x1 v86 shapeCasts_S10000_S10000x1)
    concatenates_S10000x1_S10000x1_S10000x1_S10000x1_S10000x1_S10000x1_S10000x1_S10000x1_S10000x1_S10000x1_S10000x1_S10000x1_S10000x1_S10000x1_S10000x1_S10000x1_S10000x16_d1 p q).trans ?_
  rw [pick16_apply]
  exact pick16_congr rfl rfl rfl (Cert.Keepdims.shapeCast_a_a1_apply v27 _ p 0) (Cert.Keepdims.shapeCast_a_a1_apply v30 _ p 0) (Cert.Keepdims.shapeCast_a_a1_apply v33 _ p 0) (Cert.Keepdims.shapeCast_a_a1_apply v39 _ p 0) (Cert.Keepdims.shapeCast_a_a1_apply v42 _ p 0) (Cert.Keepdims.shapeCast_a_a1_apply v45 _ p 0) (Cert.Keepdims.shapeCast_a_a1_apply v51 _ p 0) (Cert.Keepdims.shapeCast_a_a1_apply v55 _ p 0) (Cert.Keepdims.shapeCast_a_a1_apply v62 _ p 0) (Cert.Keepdims.shapeCast_a_a1_apply v69 _ p 0) (Cert.Keepdims.shapeCast_a_a1_apply v76 _ p 0) (Cert.Keepdims.shapeCast_a_a1_apply v80 _ p 0) (Cert.Keepdims.shapeCast_a_a1_apply v86 _ p 0) q

/-- THE BLOCK: what the body stores at (p, q) is channel q of row p of the loaded block. -/
theorem block_apply (P : Vec Ideal S10000x3 .f32) (p : Fin 10000) (q : Fin 16) :
    k0_pay1 (k0_pay15 P) (k0_pay16 P) (k0_pay17 P) (k0_pay18 P) (k0_pay19 P) (k0_pay22 (k0_pay20 P) (k0_pay21 (F := Ideal))) (k0_pay23 (k0_pay7 P) (k0_pay9 P) (k0_pay10 P)) (k0_pay24 (k0_pay6 P) (k0_pay7 P) (k0_pay8 P)) (k0_pay25 (k0_pay7 P) (k0_pay11 P)) (k0_pay26 (k0_pay8 P) (k0_pay11 P)) (k0_pay27 (k0_pay6 P) (k0_pay11 P)) (k0_pay28 (k0_pay8 P) (k0_pay9 P) (k0_pay10 P)) (k0_pay29 (k0_pay6 P) (k0_pay9 P) (k0_pay10 P)) (k0_pay30 (k0_pay12 (F := Ideal))) (k0_pay31 (k0_pay13 P)) (k0_pay32 (k0_pay14 P)) (ix2 p q)
      = row (P (ix2 p 0)) (P (ix2 p 1)) (P (ix2 p 2)) q := by
  rw [join_apply]
  rw [show k0_pay30 (k0_pay12 (F := Ideal)) (ix2 p (0 : Fin 1)) = k0_pay12 (F := Ideal) (ix1 p) from
        Cert.Keepdims.shapeCast_a_a1_apply (k0_pay12 (F := Ideal)) shapeCasts_S10000_S10000x1 p 0,
      show k0_pay31 (k0_pay13 P) (ix2 p (0 : Fin 1)) = k0_pay13 P (ix1 p) from
        Cert.Keepdims.shapeCast_a_a1_apply (k0_pay13 P) shapeCasts_S10000_S10000x1 p 0,
      show k0_pay32 (k0_pay14 P) (ix2 p (0 : Fin 1)) = k0_pay14 P (ix1 p) from
        Cert.Keepdims.shapeCast_a_a1_apply (k0_pay14 P) shapeCasts_S10000_S10000x1 p 0]
  unfold row
  rw [← x_apply P p, ← y_apply P p, ← z_apply P p]
  rfl

/-- The same at a block index j = (j 0, j 1). -/
theorem block_at (P : Vec Ideal S10000x3 .f32) (j : S10000x16.Idx) :
    k0_pay1 (k0_pay15 P) (k0_pay16 P) (k0_pay17 P) (k0_pay18 P) (k0_pay19 P) (k0_pay22 (k0_pay20 P) (k0_pay21 (F := Ideal))) (k0_pay23 (k0_pay7 P) (k0_pay9 P) (k0_pay10 P)) (k0_pay24 (k0_pay6 P) (k0_pay7 P) (k0_pay8 P)) (k0_pay25 (k0_pay7 P) (k0_pay11 P)) (k0_pay26 (k0_pay8 P) (k0_pay11 P)) (k0_pay27 (k0_pay6 P) (k0_pay11 P)) (k0_pay28 (k0_pay8 P) (k0_pay9 P) (k0_pay10 P)) (k0_pay29 (k0_pay6 P) (k0_pay9 P) (k0_pay10 P)) (k0_pay30 (k0_pay12 (F := Ideal))) (k0_pay31 (k0_pay13 P)) (k0_pay32 (k0_pay14 P)) j
      = row (P (ix2 (j 0) 0)) (P (ix2 (j 0) 1)) (P (ix2 (j 0) 2)) (j 1) := by
  obtain ⟨p, q, rfl⟩ : ∃ (p : Fin 10000) (q : Fin 16), j = ix2 p q := ⟨j 0, j 1, eq_ix2 j⟩
  exact block_apply P p q

end Cert.KernelIdeal.Block

end
-- ==== Proof.KernelArray.lean ====
/- The idealized kernel's result array: the harmonics of its argument array.

   Grid point t stages rows 10000·t … 10000·t + 9999 of the argument (all three columns) and of the result (all
   sixteen columns): both windows' block index at t is (t, 0), decided over the 400 points. What point t writes
   back is therefore block t of the harmonics of the whole argument array: entry (p, q) of the stored block is
   channel q of row p of the staged block, which is row 10000·t + p of the argument. The 400 blocks cover the
   result array (row r lies in block r / 10000), so the array ends as the harmonics of the argument. -/
import proofs.«170336_j56805237457290_1_alg».proof.Proof.KernelIdealValue
import proofs.«170336_j56805237457290_1_alg».proof.Proof.KernelBlock
import Idealize.ShloMosaic.Lib.Pipeline.Value
import Idealize.ShloMosaic.Lib.ValueIdx

noncomputable section

namespace Cert.KernelIdeal.Array

open Cert.KernelIdeal Cert.KernelIdeal.Gen Idealize.ShloMosaic Idealize.ShloMosaic.TcCoe Idealize.SL.Sem
  Idealize.ShloMosaic.ValueIdx Cert.Harmonics
open Idealize.ShloMosaic.Pipeline (Dat)

variable (m : (ℓ : Loc nD τ sig) → Buf (Elt Ideal) ℓ) (ρ : Dev nD → PrngReg)

/-- The body's one load and one store are through the whole block: offsets (0, 0). -/
theorem offsets_zero : (![0, 0] : Fin 2 → Nat) = fun _ => 0 := funext fun a => by fin_cases a <;> rfl

/-- Both windows' block index at point t is (t, 0). -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- WHAT POINT t WRITES BACK is block t of the harmonics of the argument array as the region finds it. -/
theorem flushed_eq (c : Dev nD) (t : Fin cfg0.N) :
    (dats m 0 c).flushed 1 t = ((cfg0.win 1).blk t).view.read (Elt Ideal) (harmonics (V m c main_arg0)) := by
  rw [Cert.KernelIdeal.Value.flushed1]
  unfold out0_1
  rw [View.canon_unit_zero offsets_zero]
  simp only [View.ld_unit_zero (S := S10000x3) offsets_zero]
  obtain ⟨e0, e1, e2, e3⟩ := index_facts t
  funext j
  show (k0_pay1 (k0_pay15 (iblk m c 0 t)) (k0_pay16 (iblk m c 0 t)) (k0_pay17 (iblk m c 0 t)) (k0_pay18 (iblk m c 0 t)) (k0_pay19 (iblk m c 0 t)) (k0_pay22 (k0_pay20 (iblk m c 0 t)) (k0_pay21 (F := Ideal))) (k0_pay23 (k0_pay7 (iblk m c 0 t)) (k0_pay9 (iblk m c 0 t)) (k0_pay10 (iblk m c 0 t))) (k0_pay24 (k0_pay6 (iblk m c 0 t)) (k0_pay7 (iblk m c 0 t)) (k0_pay8 (iblk m c 0 t))) (k0_pay25 (k0_pay7 (iblk m c 0 t)) (k0_pay11 (iblk m c 0 t))) (k0_pay26 (k0_pay8 (iblk m c 0 t)) (k0_pay11 (iblk m c 0 t))) (k0_pay27 (k0_pay6 (iblk m c 0 t)) (k0_pay11 (iblk m c 0 t))) (k0_pay28 (k0_pay8 (iblk m c 0 t)) (k0_pay9 (iblk m c 0 t)) (k0_pay10 (iblk m c 0 t))) (k0_pay29 (k0_pay6 (iblk m c 0 t)) (k0_pay9 (iblk m c 0 t)) (k0_pay10 (iblk m c 0 t))) (k0_pay30 (k0_pay12 (F := Ideal))) (k0_pay31 (k0_pay13 (iblk m c 0 t))) (k0_pay32 (k0_pay14 (iblk m c 0 t)))) j
      = harmonics (V m c main_arg0) (((cfg0.win 1).blk t).view.emb j)
  refine (Block.block_at (iblk m c 0 t) j).trans ?_
  have hrow : ∀ k : Fin 3, iblk m c 0 t (ix2 (j 0) k)
      = V m c main_arg0 (ix2 ((((cfg0.win 1).blk t).view.emb j) 0) k) := fun k => by
    show V m c main_arg0 (((cfg0.win 0).blk t).view.emb (ix2 (j 0) k)) = _
    refine congrArg (V m c main_arg0) (funext fun a => Fin.ext ?_)
    have hk : k.val < 3 := k.isLt
    match a with
    | ⟨0, _⟩ =>
      show win0_0.index t (0 : Fin 2) * 10000 + 1 * (j 0).val = win0_1.index t (0 : Fin 2) * 10000 + 1 * (j 0).val
      omega
    | ⟨1, _⟩ =>
      show win0_0.index t (1 : Fin 2) * 3 + 1 * k.val = k.val
      omega
  have hq : (j 1 : Fin 16) = (((cfg0.win 1).blk t).view.emb j) 1 := Fin.ext (by
    show (j 1).val = win0_1.index t (1 : Fin 2) * 16 + 1 * (j 1).val
    omega)
  rw [hrow 0, hrow 1, hrow 2, hq]
  rfl

/-- An index of the result array is in point t's block iff each coordinate is in the block's range on its axis. -/
theorem mem_blk (t : Fin cfg0.N) (i : S4000000x16.Idx) :
    i ∈ ((cfg0.win 1).blk t).view.set ↔ ∀ a : Fin 2, win0_1.index t a * S10000x16.size a ≤ (i a).val
      ∧ (i a).val < win0_1.index t a * S10000x16.size a + S10000x16.size a := by
  show i ∈ ((View.whole main_v0).slice (win0_1.rect t)).set ↔ _
  rw [View.set_slice_whole, Rect.mem_set_unit]
  exact Iff.rfl

/-- Every index of the result array is in some point's block: row r in block r / 10000. -/
theorem covered (i : S4000000x16.Idx) :
    ∃ t : Fin cfg0.N, (cfg0.win 1).flush t = true ∧ i ∈ ((cfg0.win 1).blk t).view.set := by
  have h0 : (i 0).val < 4000000 := (i 0).isLt
  have h1 : (i 1).val < 16 := (i 1).isLt
  have hN : cfg0.N = 400 := by decide
  have ht : (i 0).val / 10000 < cfg0.N := by rw [hN]; omega
  obtain ⟨e0, e1, e2, e3⟩ := index_facts ⟨(i 0).val / 10000, ht⟩
  refine ⟨⟨(i 0).val / 10000, ht⟩, flush0_1 _, ?_⟩
  rw [mem_blk]
  intro a
  match a with
  | ⟨0, _⟩ =>
    show win0_1.index ⟨(i 0).val / 10000, ht⟩ (0 : Fin 2) * 10000 ≤ (i 0).val
      ∧ (i 0).val < win0_1.index ⟨(i 0).val / 10000, ht⟩ (0 : Fin 2) * 10000 + 10000
    rw [e2]
    show (i 0).val / 10000 * 10000 ≤ (i 0).val ∧ (i 0).val < (i 0).val / 10000 * 10000 + 10000
    omega
  | ⟨1, _⟩ =>
    show win0_1.index ⟨(i 0).val / 10000, ht⟩ (1 : Fin 2) * 16 ≤ (i 1).val
      ∧ (i 1).val < win0_1.index ⟨(i 0).val / 10000, ht⟩ (1 : Fin 2) * 16 + 16
    rw [e3]
    omega

/-- THE RESULT ARRAY after the run: the harmonics of the argument array. -/
theorem final (c : Dev nD) :
    (dats m 0 c).arrAt 1 cfg0.N = harmonics (m ((c : Thread nD τ).loc main_arg0)) :=
  (dats m 0 c).arrAt_eq_of_cover 1 (harmonics (V m c main_arg0)) (fun t _ => flushed_eq m c t) covered

/-- The run re-posted: the result array at the harmonics of the argument, the argument unchanged. -/
theorem run : θ_run defs (onTc (τ := τ) (main (F := Ideal))) ⟨m, fun _ => 0, ρ⟩ fun r => ∀ c : Dev nD,
      r.2.mem ((c : Thread nD τ).loc main_v0) = harmonics (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Array

end
-- ==== Proof.ReferenceDirection.lean ====
/- The direction of a row, as the reference computes it.

   The reference squares the [4000000, 3] argument, sums each row from zero, takes the reciprocal square root,
   broadcasts it back along the row and scales the argument by it; it then cuts the scaled array into its three
   columns as vectors. At row r those three vectors are the coordinates of the direction of row r. The row's sum
   from zero over its three squares is the three squares added left to right, which is the one place where the
   two programs' texts differ. -/
import proofs.«170336_j56805237457290_1_alg».proof.Proof.Gen.ReferenceIdeal.Read
import proofs.«170336_j56805237457290_1_alg».proof.Proof.Harmonics
import proofs.«170336_j56805237457290_1_alg».proof.Proof.LibColumns
import Idealize.ShloMosaic.Lib.Pipeline.Value
import Idealize.ShloMosaic.Lib.ValueIdx
import Idealize.ShloMosaic.PureOps.Ideal.Laws

noncomputable section

open scoped BigOperators

namespace Cert.ReferenceIdeal.Direction

open Cert.ReferenceIdeal Cert.ReferenceIdeal.Gen Cert.ReferenceIdeal.Read Idealize.ShloMosaic Idealize.ShloMosaic.ValueIdx
  Cert.Columns Cert.Harmonics

/-- The index the row sum reads for its k-th term at row r is (r, k). -/
theorem idx_sum (r : Fin 4000000) (k : Fin 3) : idx_main_v1 (ix1 r) k = ix2 r k :=
  funext fun a => Fin.ext (by match a with | ⟨0, _⟩ => rfl | ⟨1, _⟩ => rfl)

/-- The broadcast of the [4000000, 1] column back along the row reads, at (r, k), the column at (r, 0). -/
theorem idx_back (r : Fin 4000000) (k : Fin 3) : idx_main_v4 (ix2 r k) = ix2 r (0 : Fin 1) :=
  funext fun a => Fin.ext (by match a with | ⟨0, _⟩ => rfl | ⟨1, _⟩ => rfl)

/-- The keepdims column at (r, 0) reads the vector of row sums at r. -/
theorem idx_keep (r : Fin 4000000) : idx_main_v2 (ix2 r (0 : Fin 1)) = ix1 r :=
  funext fun a => Fin.ext (by match a with | ⟨0, _⟩ => rfl)

/-- The row sum at r: the three squares of row r added left to right. -/
theorem sumsq_apply (x0 : (⟨S4000000x3, .f32⟩ : BufTy).Contents (Elt Ideal)) (r : Fin 4000000) :
    val_main_v1 (F := Ideal) x0 (ix1 r)
      = x0 (ix2 r 0) * x0 (ix2 r 0) + x0 (ix2 r 1) * x0 (ix2 r 1) + x0 (ix2 r 2) * x0 (ix2 r 2) := by
  rw [val_main_v1_apply]
  refine (zero_add_sum_three _).trans ?_
  show val_main_v0 (F := Ideal) x0 (idx_main_v1 (ix1 r) 0) + val_main_v0 (F := Ideal) x0 (idx_main_v1 (ix1 r) 1)
      + val_main_v0 (F := Ideal) x0 (idx_main_v1 (ix1 r) 2) = _
  rw [idx_sum, idx_sum, idx_sum]
  rfl

/-- The reciprocal length broadcast along the row: at (r, k) it is the reciprocal length of row r. -/
theorem invLen_apply (x0 : (⟨S4000000x3, .f32⟩ : BufTy).Contents (Elt Ideal)) (r : Fin 4000000) (k : Fin 3) :
    val_main_v4 (F := Ideal) x0 (ix2 r k) = invLen (x0 (ix2 r 0)) (x0 (ix2 r 1)) (x0 (ix2 r 2)) := by
  rw [val_main_v4_apply, val_main_v3_apply, val_main_v2_apply, idx_back, idx_keep, sumsq_apply]
  rfl

/-- The column vector k at r reads its [4000000, 1] slice at (r, 0) (one lemma per column: the three index
    functions are spelt alike). -/
theorem idx_vec0 (r : Fin 4000000) : idx_main_v7 (ix1 r) = ix2 r (0 : Fin 1) :=
  funext fun a => Fin.ext (by match a with | ⟨0, _⟩ => exact Nat.div_one _ | ⟨1, _⟩ => rfl)

theorem idx_vec1 (r : Fin 4000000) : idx_main_v9 (ix1 r) = ix2 r (0 : Fin 1) :=
  funext fun a => Fin.ext (by match a with | ⟨0, _⟩ => exact Nat.div_one _ | ⟨1, _⟩ => rfl)

theorem idx_vec2 (r : Fin 4000000) : idx_main_v11 (ix1 r) = ix2 r (0 : Fin 1) :=
  funext fun a => Fin.ext (by match a with | ⟨0, _⟩ => exact Nat.div_one _ | ⟨1, _⟩ => rfl)

/-- Slice k at (r, 0) reads the scaled array at (r, k). -/
theorem idx_col0 (r : Fin 4000000) : idx_main_v6 (ix2 r (0 : Fin 1)) = ix2 r 0 :=
  funext fun a => Fin.ext (by match a with | ⟨0, _⟩ => rfl | ⟨1, _⟩ => rfl)

theorem idx_col1 (r : Fin 4000000) : idx_main_v8 (ix2 r (0 : Fin 1)) = ix2 r 1 :=
  funext fun a => Fin.ext (by match a with | ⟨0, _⟩ => rfl | ⟨1, _⟩ => rfl)

theorem idx_col2 (r : Fin 4000000) : idx_main_v10 (ix2 r (0 : Fin 1)) = ix2 r 2 :=
  funext fun a => Fin.ext (by match a with | ⟨0, _⟩ => rfl | ⟨1, _⟩ => rfl)

/-- The direction's first coordinate at r. -/
theorem x_apply (x0 : (⟨S4000000x3, .f32⟩ : BufTy).Contents (Elt Ideal)) (r : Fin 4000000) :
    val_main_v7 (F := Ideal) x0 (ix1 r) = x0 (ix2 r 0) * invLen (x0 (ix2 r 0)) (x0 (ix2 r 1)) (x0 (ix2 r 2)) := by
  rw [val_main_v7_apply, val_main_v6_apply, idx_vec0, idx_col0, val_main_v5_apply, invLen_apply]
  rfl

/-- Its second coordinate. -/
theorem y_apply (x0 : (⟨S4000000x3, .f32⟩ : BufTy).Contents (Elt Ideal)) (r : Fin 4000000) :
    val_main_v9 (F := Ideal) x0 (ix1 r) = x0 (ix2 r 1) * invLen (x0 (ix2 r 0)) (x0 (ix2 r 1)) (x0 (ix2 r 2)) := by
  rw [val_main_v9_apply, val_main_v8_apply, idx_vec1, idx_col1, val_main_v5_apply, invLen_apply]
  rfl

/-- Its third coordinate. -/
theorem z_apply (x0 : (⟨S4000000x3, .f32⟩ : BufTy).Contents (Elt Ideal)) (r : Fin 4000000) :
    val_main_v11 (F := Ideal) x0 (ix1 r) = x0 (ix2 r 2) * invLen (x0 (ix2 r 0)) (x0 (ix2 r 1)) (x0 (ix2 r 2)) := by
  rw [val_main_v11_apply, val_main_v10_apply, idx_vec2, idx_col2, val_main_v5_apply, invLen_apply]
  rfl

end Cert.ReferenceIdeal.Direction

end
-- ==== Proof.ReferenceRows.lean ====
/- The reference's result, entry by entry.

   From the three coordinate vectors of the direction the reference forms the sixteen channel vectors with the
   same products and coefficients as the kernel, broadcasts each to a [4000000, 1] column and joins the sixteen
   columns. So its result at (r, q) is channel q of row r: the join reads column q at (r, 0), the column its
   channel vector at r, and the channel vectors at r are the channels of the direction of row r. -/
import proofs.«170336_j56805237457290_1_alg».proof.Proof.ReferenceDirection

noncomputable section

namespace Cert.ReferenceIdeal.Rows

open Cert.ReferenceIdeal Cert.ReferenceIdeal.Gen Cert.ReferenceIdeal.Read Cert.ReferenceIdeal.Direction Idealize.ShloMosaic
  Idealize.ShloMosaic.ValueIdx Cert.Columns Cert.Harmonics

/-- The sixteen channel vectors at r are the channels of the direction the three coordinate vectors give at r:
    each is a product of coefficients and coordinates, read off entry by entry. -/
theorem channels_apply (x0 : (⟨S4000000x3, .f32⟩ : BufTy).Contents (Elt Ideal)) (r : Fin 4000000) (q : Fin 16) :
    pick16 (val_main_v17 (F := Ideal) (ix1 r)) (val_main_v19 (F := Ideal) x0 (ix1 r)) (val_main_v21 (F := Ideal) x0 (ix1 r)) (val_main_v23 (F := Ideal) x0 (ix1 r)) (val_main_v26 (F := Ideal) x0 (ix1 r)) (val_main_v29 (F := Ideal) x0 (ix1 r)) (val_main_v35 (F := Ideal) x0 (ix1 r)) (val_main_v38 (F := Ideal) x0 (ix1 r)) (val_main_v41 (F := Ideal) x0 (ix1 r)) (val_main_v47 (F := Ideal) x0 (ix1 r)) (val_main_v51 (F := Ideal) x0 (ix1 r)) (val_main_v58 (F := Ideal) x0 (ix1 r)) (val_main_v65 (F := Ideal) x0 (ix1 r)) (val_main_v72 (F := Ideal) x0 (ix1 r)) (val_main_v76 (F := Ideal) x0 (ix1 r)) (val_main_v82 (F := Ideal) x0 (ix1 r)) q
      = chan (val_main_v7 (F := Ideal) x0 (ix1 r)) (val_main_v9 (F := Ideal) x0 (ix1 r)) (val_main_v11 (F := Ideal) x0 (ix1 r)) q := rfl

/-- THE RESULT at (r, q) is channel q of row r. -/
theorem result_apply (x0 : (⟨S4000000x3, .f32⟩ : BufTy).Contents (Elt Ideal)) (r : Fin 4000000) (q : Fin 16) :
    val_main_v99 (F := Ideal) x0 (ix2 r q) = row (x0 (ix2 r 0)) (x0 (ix2 r 1)) (x0 (ix2 r 2)) q := by
  refine (concatenate16_apply (val_main_v83 (F := Ideal)) (val_main_v84 (F := Ideal) x0) (val_main_v85 (F := Ideal) x0) (val_main_v86 (F := Ideal) x0) (val_main_v87 (F := Ideal) x0) (val_main_v88 (F := Ideal) x0) (val_main_v89 (F := Ideal) x0) (val_main_v90 (F := Ideal) x0) (val_main_v91 (F := Ideal) x0) (val_main_v92 (F := Ideal) x0) (val_main_v93 (F := Ideal) x0) (val_main_v94 (F := Ideal) x0) (val_main_v95 (F := Ideal) x0) (val_main_v96 (F := Ideal) x0) (val_main_v97 (F := Ideal) x0) (val_main_v98 (F := Ideal) x0)
    concatenates_S4000000x1_S4000000x1_S4000000x1_S4000000x1_S4000000x1_S4000000x1_S4000000x1_S4000000x1_S4000000x1_S4000000x1_S4000000x1_S4000000x1_S4000000x1_S4000000x1_S4000000x1_S4000000x1_S4000000x16_d1 r q).trans ?_
  rw [pick16_apply]
  refine (pick16_congr
    (broadcastInDim_a_a1_apply (val_main_v17 (F := Ideal)) bcast_S4000000_S4000000x1_0 r 0)
    (broadcastInDim_a_a1_apply (val_main_v19 (F := Ideal) x0) bcast_S4000000_S4000000x1_0 r 0)
    (broadcastInDim_a_a1_apply (val_main_v21 (F := Ideal) x0) bcast_S4000000_S4000000x1_0 r 0)
    (broadcastInDim_a_a1_apply (val_main_v23 (F := Ideal) x0) bcast_S4000000_S4000000x1_0 r 0)
    (broadcastInDim_a_a1_apply (val_main_v26 (F := Ideal) x0) bcast_S4000000_S4000000x1_0 r 0)
    (broadcastInDim_a_a1_apply (val_main_v29 (F := Ideal) x0) bcast_S4000000_S4000000x1_0 r 0)
    (broadcastInDim_a_a1_apply (val_main_v35 (F := Ideal) x0) bcast_S4000000_S4000000x1_0 r 0)
    (broadcastInDim_a_a1_apply (val_main_v38 (F := Ideal) x0) bcast_S4000000_S4000000x1_0 r 0)
    (broadcastInDim_a_a1_apply (val_main_v41 (F := Ideal) x0) bcast_S4000000_S4000000x1_0 r 0)
    (broadcastInDim_a_a1_apply (val_main_v47 (F := Ideal) x0) bcast_S4000000_S4000000x1_0 r 0)
    (broadcastInDim_a_a1_apply (val_main_v51 (F := Ideal) x0) bcast_S4000000_S4000000x1_0 r 0)
    (broadcastInDim_a_a1_apply (val_main_v58 (F := Ideal) x0) bcast_S4000000_S4000000x1_0 r 0)
    (broadcastInDim_a_a1_apply (val_main_v65 (F := Ideal) x0) bcast_S4000000_S4000000x1_0 r 0)
    (broadcastInDim_a_a1_apply (val_main_v72 (F := Ideal) x0) bcast_S4000000_S4000000x1_0 r 0)
    (broadcastInDim_a_a1_apply (val_main_v76 (F := Ideal) x0) bcast_S4000000_S4000000x1_0 r 0)
    (broadcastInDim_a_a1_apply (val_main_v82 (F := Ideal) x0) bcast_S4000000_S4000000x1_0 r 0) q).trans ?_
  rw [channels_apply, x_apply, y_apply, z_apply]
  rfl

/-- The reference's result array is the harmonics of its argument array. -/
theorem result_eq (x0 : (⟨S4000000x3, .f32⟩ : BufTy).Contents (Elt Ideal)) : val_main_v99 (F := Ideal) x0 = harmonics x0 := by
  funext i
  obtain ⟨r, q, rfl⟩ : ∃ (r : Fin 4000000) (q : Fin 16), i = ix2 r q := ⟨i 0, i 1, eq_ix2 i⟩
  exact result_apply x0 r q

end Cert.ReferenceIdeal.Rows

end
-- ==== Proof.lean ====
/- The proof of `Cert.Claim`: the Pallas kernel that computes the sixteen real spherical harmonics of degree at most
   three of 4,000,000 three-vectors, against its jnp reference, over the extended reals.

   Both programs scale each row (a, b, c) onto the unit sphere by (a² + b² + c²)^(-1/2) and evaluate the same
   sixteen polynomials of the direction with the same f32 coefficients, associated the same way. The kernel does
   it block by block (400 blocks of 10,000 rows; it splits the loaded block into its three columns, computes with
   vectors, and joins sixteen columns for the store); the reference does it on whole arrays (it sums the squared
   row from zero, broadcasts the reciprocal root back, scales, slices the columns and joins sixteen columns). The
   one difference of text is the row's sum of squares, (a² + b²) + c² against 0 + Σₖ vₖ², equal on the extended
   reals by the laws of a commutative monoid alone, so the precondition (finite inputs) is never opened.

   `Cert.Harmonics.harmonics` is the result array as one function of the argument array; the kernel's run ends
   with the result at it (KernelArray, over KernelBlock: what a stored block holds, entry by entry), and so does
   the reference's (ReferenceRows, over ReferenceDirection). The frames of the two kernel programs are the
   generated ones; the reference's frame is its generated run with the result dropped; the idealization rewrote
   no operation, so `preserves` states nothing. -/
import proofs.«170336_j56805237457290_1_alg».proof.Defs
import proofs.«170336_j56805237457290_1_alg».proof.Proof.Gen.Kernel
import proofs.«170336_j56805237457290_1_alg».proof.Proof.Gen.Kernel.Skeleton
import proofs.«170336_j56805237457290_1_alg».proof.Proof.Gen.Kernel.Launch
import proofs.«170336_j56805237457290_1_alg».proof.Proof.Gen.Kernel.Points
import proofs.«170336_j56805237457290_1_alg».proof.Proof.Gen.Kernel.Frame
import proofs.«170336_j56805237457290_1_alg».proof.Proof.Gen.KernelIdeal
import proofs.«170336_j56805237457290_1_alg».proof.Proof.Gen.KernelIdeal.Skeleton
import proofs.«170336_j56805237457290_1_alg».proof.Proof.Gen.KernelIdeal.Launch
import proofs.«170336_j56805237457290_1_alg».proof.Proof.Gen.KernelIdeal.Points
import proofs.«170336_j56805237457290_1_alg».proof.Proof.Gen.KernelIdeal.Frame
import proofs.«170336_j56805237457290_1_alg».proof.Proof.Gen.ReferenceIdeal
import proofs.«170336_j56805237457290_1_alg».proof.Proof.Gen.Pre_finite_inputs
import proofs.«170336_j56805237457290_1_alg».proof.Proof.KernelIdealValue
import proofs.«170336_j56805237457290_1_alg».proof.Proof.Gen.ReferenceIdeal.Run
import proofs.«170336_j56805237457290_1_alg».proof.Proof.Gen.ReferenceIdeal.Read
import proofs.«170336_j56805237457290_1_alg».proof.Proof.KernelArray
import proofs.«170336_j56805237457290_1_alg».proof.Proof.ReferenceRows
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its argument unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the argument array, the kernel's result array and the reference's both end as the
    harmonics of that array. -/
theorem algebraic : Cert.algebraic_KernelIdeal_ReferenceIdeal := by
  intro m ρ m' ρ' _ hagree
  refine ⟨fun c => Cert.Harmonics.harmonics (m ((c.tc : Thread Cert.KernelIdeal.nD Cert.KernelIdeal.τ).loc Cert.KernelIdeal.main_arg0)),
    Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v99_eq, Cert.ReferenceIdeal.Rows.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
